-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S1600000 : Shape := ⟨1, ![1600000]⟩
abbrev S512x64 : Shape := ⟨2, ![512, 64]⟩
abbrev S64 : Shape := ⟨1, ![64]⟩
abbrev S64x64 : Shape := ⟨2, ![64, 64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x512 .f32) (main_arg1 : IVec S2x1600000 32) (main_arg2 : FVec F S1600000 .f32) (main_arg3 : FVec F S512x64 .f32) (main_arg4 : FVec F S64 .f32) (main_arg5 : FVec F S64x64 .f32) (main_arg6 : FVec F S64 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x64 .f32 := Host.absf main_arg3
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x512 : Shape := ⟨2, ![100000, 512]⟩
abbrev S2x1600000 : Shape := ⟨2, ![2, 1600000]⟩
abbrev S1600000 : Shape := ⟨1, ![1600000]⟩
abbrev S512x64 : Shape := ⟨2, ![512, 64]⟩
abbrev S64 : Shape := ⟨1, ![64]⟩
abbrev S64x64 : Shape := ⟨2, ![64, 64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x512 : Shape := ⟨2, ![5000, 512]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 92
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S1600000, .f32⟩
  | .hbm, ⟨3, _⟩ => ⟨S512x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x64, .f32⟩
  | .hbm, ⟨82, _⟩ => ⟨S1700000x1, .f32⟩
  | .hbm, ⟨83, _⟩ => ⟨S1700000x64, .f32⟩
  | .hbm, ⟨84, _⟩ => ⟨S1700000x64, .f32⟩
  | .hbm, ⟨85, _⟩ => ⟨S_, .f32⟩
  | .hbm, ⟨86, _⟩ => ⟨S100000x64, .f32⟩
  | .hbm, ⟨87, _⟩ => ⟨S1700000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | .local _ .vmem, ⟨0, _⟩ => ⟨S5000x512, .f32⟩
  | .local _ .vmem, ⟨1, _⟩ => ⟨S5000x512, .f32⟩
  | .local _ .vmem, ⟨2, _⟩ => ⟨S512x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x512_S512x64_S5000x64_1_0_0_1_n_n_wf : DotDims.WF S5000x512 S512x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x512_S512x64_S5000x64_1_0_0_1_n_n : DotDims S5000x512 S512x64 S5000x64 where
  lhsContracting := [1]
  rhsContracting := [0]
  lhsNonContracting := [0]
  rhsNonContracting := [1]
  lhsBatch := []
  rhsBatch := []
  wf := dot_S5000x512_S512x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S1600000 : Shape := ⟨1, ![1600000]⟩
abbrev S512x64 : Shape := ⟨2, ![512, 64]⟩
abbrev S64 : Shape := ⟨1, ![64]⟩
abbrev S64x64 : Shape := ⟨2, ![64, 64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 130
  | .vmem => 0
  | .smem => 0
  | _ => 0

abbrev hbmTy0_0 (i : Nat) : BufTy := match i % 128 with
  | 0 => ⟨S100000x512, .f32⟩
  | 1 => ⟨S2x1600000, .i32⟩
  | 2 => ⟨S1600000, .f32⟩
  | 3 => ⟨S512x64, .f32⟩
  | 4 => ⟨S64, .f32⟩
  | 5 => ⟨S64x64, .f32⟩
  | 6 => ⟨S64, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S100000, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x64, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x64, .f32⟩
  | 59 => ⟨S1700000x1, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000, .i32⟩
  | 73 => ⟨S1700000, .i32⟩
  | 74 => ⟨S1700000, .i32⟩
  | 75 => ⟨S_, .f32⟩
  | 76 => ⟨S100000, .f32⟩
  | 77 => ⟨S1700000, .f32⟩
  | 78 => ⟨S_, .f32⟩
  | 79 => ⟨S100000, .f32⟩
  | 80 => ⟨S1700000x1, .i32⟩
  | 81 => ⟨S100000, .f32⟩
  | 82 => ⟨S_, .f32⟩
  | 83 => ⟨S100000, .f32⟩
  | 84 => ⟨S100000, .i1⟩
  | 85 => ⟨S100000, .f32⟩
  | 86 => ⟨S_, .f32⟩
  | 87 => ⟨S_, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S100000x64, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x64, .f32⟩
  | 120 => ⟨S1700000x1, .f32⟩
  | 121 => ⟨S1700000x64, .f32⟩
  | 122 => ⟨S1700000x64, .f32⟩
  | 123 => ⟨S_, .f32⟩
  | 124 => ⟨S100000x64, .f32⟩
  | 125 => ⟨S1700000x1, .i32⟩
  | 126 => ⟨S100000x64, .f32⟩
  | 127 => ⟨S1x64, .f32⟩
  | _ => ⟨S100000x512, .f32⟩

abbrev hbmTy0_1 (i : Nat) : BufTy := match i % 128 with
  | 0 => ⟨S100000x64, .f32⟩
  | 1 => ⟨S100000x64, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_9 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v61 : Ref sig .tc := ⟨.hbm, 89, rfl⟩
abbrev main_c_13 : Ref sig .tc := ⟨.hbm, 90, rfl⟩
abbrev main_v62 : Ref sig .tc := ⟨.hbm, 91, rfl⟩
abbrev main_v63 : Ref sig .tc := ⟨.hbm, 92, rfl⟩
abbrev main_c_14 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_15 : Ref sig .tc := ⟨.hbm, 100, rfl⟩
abbrev main_v70 : Ref sig .tc := ⟨.hbm, 101, rfl⟩
abbrev main_v71 : Ref sig .tc := ⟨.hbm, 102, rfl⟩
abbrev main_c_16 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x512_S512x64_S100000x64_1_0_0_1_n_n_wf : DotDims.WF S100000x512 S512x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.LibDenseRows.lean ====
/-
  Dense layers read along a row, for any number of rows and any widths. A dense layer sends a row x to x·W + b, and the
  rectifier takes the maximum with zero. A kernel spells the layer on a block of R rows as a block product into a zero
  accumulator plus the bias cast to one row and broadcast down the rows; a host program spells it on all R rows as a
  dot_general plus the bias broadcast in two steps. Read along row r, both are the row function of row r of the
  operand — at the extended reals, where the two products are the same sum over the contracted coordinate. The same
  for the rectifier in its two spellings (the maximum with a zero splat; the maximum with the zero word broadcast from
  a scalar), and for a change of float format, which changes no entry. The products are stated at the plain
  dimension record (rows × contraction times contraction × columns), to which a printed record of the same lists unfolds.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.LibDenseRows

open Idealize.ShloMosaic Idealize.ShloMosaic.ValueIdx

/-- The f32 word of zero read at the extended reals; kept as a word, since both spellings write the same one. -/
abbrev zeroW : EReal := Ideal.ofBits .f32 0x00000000#32

/-- A dense layer on one row: x ↦ x·W + b. -/
def dense {K N : ℕ} (x : Fin K → EReal) (W : Fin K → Fin N → EReal) (b : Fin N → EReal) : Fin N → EReal :=
  fun n => (∑ k : Fin K, x k * W k n) + b n

/-- The rectifier on one row. -/
def relu {N : ℕ} (x : Fin N → EReal) : Fin N → EReal := fun n => max (x n) zeroW

abbrev Sh2 (a b : ℕ) : Shape := ⟨2, ![a, b]⟩
abbrev Sh1 (a : ℕ) : Shape := ⟨1, ![a]⟩
abbrev Sh0 : Shape := ⟨0, ![]⟩

variable {R K N : ℕ} {φ₁ φ₂ : FTy}

/-- A block product into the zero accumulator, read at (a, b): the sum over the contracted coordinate. -/
theorem matmul_plain_zero_apply (prec : Option ContractPrecision) (A : FVec Ideal (Sh2 R K) φ₁) (B : FVec Ideal (Sh2 K N) φ₂)
    (a : Fin R) (b : Fin N) :
    matmul (DotDims.plain R K N) prec A B (constant (Sh2 R N) .f32 0x00000000#32) (ix2 a b) = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Pointwise operations read at an index -/

theorem exp_apply {s : Shape} {φ : FTy} (v : FVec Ideal s φ) (i : s.Idx) : exp v i = Ideal.exp (v i) := rfl
theorem hostExp_apply {s : Shape} {φ : FTy} (v : FVec Ideal s φ) (i : s.Idx) : Host.exp v i = Ideal.exp (v i) := rfl
theorem hostDivf_apply {s : Shape} {φ : FTy} (a b : FVec Ideal s φ) (i : s.Idx) : Host.divf a b i = Ideal.div (a i) (b i) := rfl

/-- A change of float format changes no entry. -/
theorem truncf_row {φ ψ : FTy} (Z : FVec Ideal (Sh2 R N) φ) (h : ψ.bits < φ.bits) (r : Fin R) :
    (fun n : Fin N => (truncf ψ Z h : FVec Ideal (Sh2 R N) ψ) (ix2 r n)) = fun n => Z (ix2 r n) := rfl

/-! ## A kernel's spelling of a layer, on a block of R rows -/

/-- The kernel's dense layer: the block times the weights into a zero accumulator, plus the bias as a broadcast row. -/
def kDense (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) : FVec Ideal (Sh2 R N) .f32 :=
  addf (matmul (DotDims.plain R K N) none X W (constant (Sh2 R N) .f32 0x00000000#32))
    (broadcastTo (Sh2 R N) (shapeCast (Sh2 1 N) b h1) h2)

theorem kDense_row (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) (r : Fin R) :
    (fun n : Fin N => kDense X W b h1 h2 (ix2 r n))
      = dense (fun k => X (ix2 r k)) (fun k n => W (ix2 k n)) (fun n => b (ix1 n)) := by
  funext n
  unfold kDense dense
  rw [addf_apply, matmul_plain_zero_apply, broadcastTo_1b_ab_apply, shapeCast_a_1a_apply]

/-- The kernel's rectifier: the maximum with a splat of the zero word. -/
def kRelu (Z : FVec Ideal (Sh2 R N) .f32) : FVec Ideal (Sh2 R N) .f32 :=
  maximumf Z (broadcast (Sh2 R N) (Scalar.ofBits .f32 0x00000000#32))

theorem kRelu_row (Z : FVec Ideal (Sh2 R N) .f32) (r : Fin R) :
    (fun n : Fin N => kRelu Z (ix2 r n)) = relu (fun n => Z (ix2 r n)) := rfl

/-! ## A host program's spelling of a layer, on all R rows -/

/-- The host's dense layer: a dot_general plus the bias made a one-row matrix and repeated over the rows. -/
def hDense (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) : FVec Ideal (Sh2 R N) .f32 :=
  addf (Host.dotGeneral (DotDims.plain R K N) none X W)
    (broadcastInDim (Sh2 R N) ![0, 1] h2 (broadcastInDim (Sh2 1 N) ![1] h1 b))

/-- A bias vector made a one-row matrix and then repeated over the rows reads, at (r, n), the bias at n. -/
theorem biasRows_apply {α : Type} (b : (Sh1 N).Idx → α)
    (h1 : (Sh1 N).BroadcastsInDim (Sh2 1 N) ![1]) (h2 : (Sh2 1 N).BroadcastsInDim (Sh2 R N) ![0, 1]) (r : Fin R) (n : Fin N) :
    broadcastInDim (Sh2 R N) ![0, 1] h2 (broadcastInDim (Sh2 1 N) ![1] h1 b) (ix2 r n) = b (ix1 n) := by
  rw [broadcastInDim_apply ![0, 1] h2 _ (ix2 r n) (ix2 (0 : Fin 1) n) (fun a => by
    match a with
    | ⟨0, _⟩ => rfl
    | ⟨1, _⟩ =>
      show n.val = if N = 1 then 0 else n.val
      split
      · have := n.isLt; omega
      · rfl)]
  rw [broadcastInDim_apply ![1] h1 b (ix2 (0 : Fin 1) n) (ix1 n) (fun a => by
    match a with
    | ⟨0, _⟩ =>
      show n.val = if N = 1 then 0 else n.val
      split
      · have := n.isLt; omega
      · rfl)]

theorem hDense_row (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) (r : Fin R) :
    (fun n : Fin N => hDense X W b h1 h2 (ix2 r n))
      = dense (fun k => X (ix2 r k)) (fun k n => W (ix2 k n)) (fun n => b (ix1 n)) := by
  funext n
  unfold hDense dense
  rw [addf_apply, StackMember.dotGeneral_plain_apply, biasRows_apply]

/-- The reference's rectifier: the maximum with the zero word broadcast from a scalar. -/
def hRelu (Z : FVec Ideal (Sh2 R N) .f32) (hb : Sh0.BroadcastsInDim (Sh2 R N) ![]) : FVec Ideal (Sh2 R N) .f32 :=
  maximumf Z (broadcastInDim (Sh2 R N) ![] hb (constant Sh0 .f32 0x00000000#32))

theorem hRelu_row (Z : FVec Ideal (Sh2 R N) .f32) (hb : Sh0.BroadcastsInDim (Sh2 R N) ![]) (r : Fin R) :
    (fun n : Fin N => hRelu Z hb (ix2 r n)) = relu (fun n => Z (ix2 r n)) := by
  funext n
  unfold hRelu relu
  rw [maximumf_apply, broadcastInDim_apply ![] hb _ (ix2 r n) ix0 (fun a => a.elim0)]
  rfl

end Cert.LibDenseRows
-- ==== Proof.Layer1Blocks.lean ====
/-
  The first dense product, block by block.

  The region walks the 100000 rows of x in twenty blocks of 5000. At point t it holds rows 5000 t … 5000 t + 4999 of x
  and the whole of W1, multiplies them into a zero accumulator and writes the 5000 × 64 result back as block t of
  the output. A change of float format changes no entry, and a block product into a zero accumulator is, entry
  (p, q), the sum over k of x (5000 t + p, k) · W1 (k, q): the (5000 t + p, q) entry of the product of all rows. The
  twenty blocks tile the rows (row r lies in block r / 5000), so after the region the output array IS the product of
  all rows — stated here against the plain 100000 × 512 by 512 × 64 dimension record, for whatever contents the
  region is entered with.
-/
import proofs.«121148_j88476326297971_1_alg».proof.Proof.Gen.KernelIdeal.Frame
import proofs.«121148_j88476326297971_1_alg».proof.Proof.LibDenseRows
import Idealize.ShloMosaic.Lib.Pipeline.Value
import Idealize.ShloMosaic.Lib.ValueIdx
import Idealize.ShloMosaic.Lib.StackMember

set_option maxRecDepth 16384

noncomputable section

namespace Cert.KernelIdeal.Layer1

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

abbrev whole (X : S100000x512.Idx → EReal) (W : S512x64.Idx → EReal) : S100000x64.Idx → EReal :=
  Host.dotGeneral (F := Ideal) (DotDims.plain 100000 512 64) none (φ₁ := .f32) (φ₂ := .f32) X W

theorem pay_apply (x0 : Vec Ideal S5000x512 .f32) (x1 : Vec Ideal S512x64 .f32) (p : Fin 5000) (q : Fin 64) :
    k0_pay1 x0 x1 (ix2 p q) = ∑ k : Fin 512, x0 (ix2 p k) * x1 (ix2 k q) := by
  unfold k0_pay1
  exact Cert.LibDenseRows.matmul_plain_zero_apply none (truncf .bf16 x0 bitsLt_bf16_f32) (truncf .bf16 x1 bitsLt_bf16_f32) p q

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a block's product against one entry of the product of all rows: equal as soon as the block's row is
    the array's row and the weights are the array's weights, entry by entry along the contracted coordinate. -/
theorem point_eq (x0 : Vec Ideal S5000x512 .f32) (x1 : Vec Ideal S512x64 .f32)
    (X : S100000x512.Idx → EReal) (W : S512x64.Idx → EReal) (p : Fin 5000) (q : Fin 64) (a : Fin 100000) (b : Fin 64)
    (h0 : ∀ k : Fin 512, x0 (ix2 p k) = X (ix2 a k)) (h1 : ∀ k : Fin 512, x1 (ix2 k q) = W (ix2 k b)) :
    k0_pay1 x0 x1 (ix2 p q) = whole X W (ix2 a b) := by
  rw [pay_apply]
  refine ((StackMember.dotGeneral_plain_apply none X W a b).trans ?_).symm
  exact Finset.sum_congr rfl fun k _ => by rw [h0 k, h1 k]

/-- What point t writes back is block t of the product of all rows: row p of the block is row 5000 t + p of the
    first operand, the second operand's one block is the whole of it. -/
theorem flushed_eq (c : Dev nD) (t : Fin cfg0.N) :
    (dat0 V c).flushed 2 t = ((cfg0.win 2).blk t).view.read (Elt Ideal) (whole (V c main_arg0) (V c main_arg3)) := by
  show (cfg0.win 2).cut (grid0.coords t) ((dat0 V c).after 2 t) = _
  rw [after0_2]
  unfold out0_2
  rw [View.canon_unit_zero hz]
  simp only [View.ld_unit_zero (S := S5000x512) hz, View.ld_unit_zero (S := S512x64) hz]
  obtain ⟨e0, e1, e2, e3, e4, e5⟩ := idx_facts t
  have ht : t.val < 20 := N_0 ▸ t.isLt
  funext j
  obtain ⟨p, q, rfl⟩ : ∃ (p : Fin 5000) (q : Fin 64), j = ix2 p q := ⟨j 0, j 1, eq_ix2 j⟩
  have hp : p.val < 5000 := p.isLt
  have hemb : ((cfg0.win 2).blk t).view.emb (ix2 p q) = ix2 (⟨t.val * 5000 + p.val, by omega⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  show k0_pay1 (iblk0 V c 0 t) (iblk0 V c 1 t) (ix2 p q) = whole (V c main_arg0) (V c main_arg3) (((cfg0.win 2).blk t).view.emb (ix2 p q))
  rw [hemb]
  refine point_eq (iblk0 V c 0 t) (iblk0 V c 1 t) (V c main_arg0) (V c main_arg3) p q ⟨t.val * 5000 + p.val, by omega⟩ q ?_ ?_
  · intro k
    show V c main_arg0 (((cfg0.win 0).blk t).view.emb (ix2 p k)) = V c main_arg0 (ix2 (⟨t.val * 5000 + p.val, by omega⟩ : Fin 100000) k)
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 512 + 1 * k.val = k.val; omega
  · intro k
    show V c main_arg3 (((cfg0.win 1).blk t).view.emb (ix2 k q)) = V c main_arg3 (ix2 k q)
    refine congrArg (V c main_arg3) ?_
    funext a; apply Fin.ext
    match a with
    | ⟨0, _⟩ => show win0_1.index t (0 : Fin 2) * 512 + 1 * k.val = k.val; omega
    | ⟨1, _⟩ => show win0_1.index t (1 : Fin 2) * 64 + 1 * q.val = q.val; omega

/-- An index of the result is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Row r lies in the block of point r / 5000: the twenty blocks of 5000 rows tile the 100000 rows. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 5000, by rw [show cfg0.N = 20 from N_0]; omega⟩
  obtain ⟨e0, e1, e2, e3, e4, e5⟩ := idx_facts t
  have e4' : win0_2.index t (0 : Fin 2) = (i 0).val / 5000 := e4
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The result array after the region: the product of all rows of the first operand with the weights. -/
theorem arr_eq (c : Dev nD) : (dat0 V c).arrAt 2 cfg0.N = whole (V c main_arg0) (V c main_arg3) :=
  (dat0 V c).arrAt_eq_of_cover 2 (whole (V c main_arg0) (V c main_arg3)) (fun t _ => flushed_eq V c t) cover

end Cert.KernelIdeal.Layer1

end
-- ==== Proof.Layer2Blocks.lean ====
/-
  The second dense product, block by block.

  The region walks the 100000 rows of the hidden features h in twenty blocks of 5000. At point t it holds rows
  5000 t … 5000 t + 4999 of h and the whole of W2; the body recasts the block to the shape it already has (which
  moves no entry), changes float format (which changes no entry), multiplies into a zero accumulator and writes the
  5000 × 64 result back as block t of the output. Entry (p, q) of the block product is the sum over k of
  h (5000 t + p, k) · W2 (k, q): the (5000 t + p, q) entry of the product of all rows. The twenty blocks tile the
  rows, so after the region the output array IS the product of all rows — stated against the plain
  100000 × 64 by 64 × 64 dimension record, for whatever contents the region is entered with.
-/
import proofs.«121148_j88476326297971_1_alg».proof.Proof.Gen.KernelIdeal.Frame
import proofs.«121148_j88476326297971_1_alg».proof.Proof.LibDenseRows
import Idealize.ShloMosaic.Lib.Pipeline.Value
import Idealize.ShloMosaic.Lib.ValueIdx
import Idealize.ShloMosaic.Lib.StackMember

set_option maxRecDepth 16384

noncomputable section

namespace Cert.KernelIdeal.Layer2

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The product of all 100000 rows of the hidden features with the 64 × 64 weights. -/
abbrev whole (H : S100000x64.Idx → EReal) (W : S64x64.Idx → EReal) : S100000x64.Idx → EReal :=
  Host.dotGeneral (F := Ideal) (DotDims.plain 100000 64 64) none (φ₁ := .f32) (φ₂ := .f32) H W

/-- The body's arithmetic at one entry: the recast and the two changes of format move nothing, and the product into
    the zero accumulator is the sum over the 64 contracted coordinates. -/
theorem body_apply (h : Vec Ideal S5000x64 .f32) (w : Vec Ideal S64x64 .f32) (p : Fin 5000) (q : Fin 64) :
    k1_pay1 h w (ix2 p q) = ∑ k : Fin 64, h (ix2 p k) * w (ix2 k q) := by
  unfold k1_pay1
  rw [shapeCast_self]
  exact Cert.LibDenseRows.matmul_plain_zero_apply none (truncf .bf16 h bitsLt_bf16_f32) (truncf .bf16 w bitsLt_bf16_f32) p q

/-- The printed index maps over the twenty points: the feature block and the output block are block t along the
    rows, the weight block is always the first. -/
theorem maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- An entry of a block's product is an entry of the product of all rows, once the block's row is the array's row
    and the block of weights is the array of weights, along the contracted coordinate. -/
theorem entry_eq (h : Vec Ideal S5000x64 .f32) (w : Vec Ideal S64x64 .f32)
    (H : S100000x64.Idx → EReal) (W : S64x64.Idx → EReal) (p : Fin 5000) (q : Fin 64) (a : Fin 100000) (b : Fin 64)
    (hrow : ∀ k : Fin 64, h (ix2 p k) = H (ix2 a k)) (hcol : ∀ k : Fin 64, w (ix2 k q) = W (ix2 k b)) :
    k1_pay1 h w (ix2 p q) = whole H W (ix2 a b) := by
  rw [body_apply]
  refine ((StackMember.dotGeneral_plain_apply none H W a b).trans ?_).symm
  exact Finset.sum_congr rfl fun k _ => by rw [hrow k, hcol k]

/-- What point t writes back is block t of the product of all rows. -/
theorem flushed_eq (c : Dev nD) (t : Fin cfg1.N) :
    (dat1 V c).flushed 2 t = ((cfg1.win 2).blk t).view.read (Elt Ideal) (whole (V c main_v49) (V c main_arg5)) := by
  show (cfg1.win 2).cut (grid1.coords t) ((dat1 V c).after 2 t) = _
  rw [after1_2]
  unfold out1_2
  rw [View.canon_unit_zero origin]
  simp only [View.ld_unit_zero (S := S5000x64) origin, View.ld_unit_zero (S := S64x64) origin]
  obtain ⟨f0, f1, g0, g1, o0, o1⟩ := maps t
  have ht : t.val < 20 := N_1 ▸ t.isLt
  funext j
  obtain ⟨p, q, rfl⟩ : ∃ (p : Fin 5000) (q : Fin 64), j = ix2 p q := ⟨j 0, j 1, eq_ix2 j⟩
  have hp : p.val < 5000 := p.isLt
  have hout : ((cfg1.win 2).blk t).view.emb (ix2 p q) = ix2 (⟨t.val * 5000 + p.val, by omega⟩ : Fin 100000) q := by
    funext a; apply Fin.ext
    match a with
    | ⟨0, _⟩ => show win1_2.index t (0 : Fin 2) * 5000 + 1 * p.val = t.val * 5000 + p.val; omega
    | ⟨1, _⟩ => show win1_2.index t (1 : Fin 2) * 64 + 1 * q.val = q.val; omega
  show k1_pay1 (iblk1 V c 0 t) (iblk1 V c 1 t) (ix2 p q) = whole (V c main_v49) (V c main_arg5) (((cfg1.win 2).blk t).view.emb (ix2 p q))
  rw [hout]
  refine entry_eq (iblk1 V c 0 t) (iblk1 V c 1 t) (V c main_v49) (V c main_arg5) p q ⟨t.val * 5000 + p.val, by omega⟩ q ?_ ?_
  · intro k
    show V c main_v49 (((cfg1.win 0).blk t).view.emb (ix2 p k)) = V c main_v49 (ix2 (⟨t.val * 5000 + p.val, by omega⟩ : Fin 100000) k)
    refine congrArg (V c main_v49) ?_
    funext a; apply Fin.ext
    match a with
    | ⟨0, _⟩ => show win1_0.index t (0 : Fin 2) * 5000 + 1 * p.val = t.val * 5000 + p.val; omega
    | ⟨1, _⟩ => show win1_0.index t (1 : Fin 2) * 64 + 1 * k.val = k.val; omega
  · intro k
    show V c main_arg5 (((cfg1.win 1).blk t).view.emb (ix2 k q)) = V c main_arg5 (ix2 k q)
    refine congrArg (V c main_arg5) ?_
    funext a; apply Fin.ext
    match a with
    | ⟨0, _⟩ => show win1_1.index t (0 : Fin 2) * 64 + 1 * k.val = k.val; omega
    | ⟨1, _⟩ => show win1_1.index t (1 : Fin 2) * 64 + 1 * q.val = q.val; omega

/-- An index of the output is in point t's block iff each coordinate is in the block's range on its axis. -/
theorem mem_block (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v50).slice (win1_2.rect t)).set ↔ _
  rw [View.set_slice_whole, Rect.mem_set_unit]
  exact Iff.rfl

/-- Row r lies in the block of point r / 5000: the twenty blocks of 5000 rows tile the 100000 rows. -/
theorem tiled (i : S100000x64.Idx) : ∃ t : Fin cfg1.N, (cfg1.win 2).flush t = true ∧ i ∈ ((cfg1.win 2).blk t).view.set := by
  have hrow : (i 0).val < 100000 := (i 0).isLt
  have hcol : (i 1).val < 64 := (i 1).isLt
  let t : Fin cfg1.N := ⟨(i 0).val / 5000, by rw [show cfg1.N = 20 from N_1]; omega⟩
  obtain ⟨f0, f1, g0, g1, o0, o1⟩ := maps t
  have o0' : win1_2.index t (0 : Fin 2) = (i 0).val / 5000 := o0
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- The output array after the region: the product of all rows of the hidden features with the weights. -/
theorem arr_eq (c : Dev nD) : (dat1 V c).arrAt 2 cfg1.N = whole (V c main_v49) (V c main_arg5) :=
  (dat1 V c).arrAt_eq_of_cover 2 (whole (V c main_v49) (V c main_arg5)) (fun t _ => flushed_eq V c t) tiled

end Cert.KernelIdeal.Layer2

end
-- ==== Proof.GraphConvK.lean ====
/-
  The two-layer graph convolution of the specification, spelt over the kernel program's own shape records.

  The same functions, step for step: edge lists with self-loops, self-loop weights, the index read from the far end
  when negative, the weighted in-degree, its inverse root, the edge coefficient, one propagation, the rectifier, and
  the network. The kernel program prints no dimension record for a product of all rows (its products are block by
  block), so the two dense products are stated here at the plain rows × contraction × columns record.
-/
import proofs.«121148_j88476326297971_1_alg».proof.KernelIdeal
import proofs.«121148_j88476326297971_1_alg».proof.Proof.Gen.KernelIdeal

noncomputable section

namespace Cert.GraphConvK

open Cert.KernelIdeal Cert.KernelIdeal.Gen Idealize.ShloMosaic

variable {F : FTy → Type} [FloatOps F]

/-- Source node of every edge, then of every self-loop (node v loops to itself). -/
def srcs (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Target node of every edge, then of every self-loop. -/
def dsts (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- Weight of every edge, then weight 1 for every self-loop. -/
def wts (w : (⟨S1600000, .f32⟩ : BufTy).Contents (Elt F)) : (⟨S1700000, .f32⟩ : BufTy).Contents (Elt F) :=
  concatenate S1700000 0 [⟨S1600000, w⟩, ⟨S100000, (broadcastInDim S100000 ![] bcast_S_S100000 (constant S_ .f32 0x3F800000#32))⟩] concatenates_S1600000_S100000_S1700000_d0

/-- A node index as a gather reads it: a negative index counts from the far end; laid out as a column. -/
def wrap (s : (⟨S1700000, .i32⟩ : BufTy).Contents (Elt F)) : (⟨S1700000x1, .i32⟩ : BufTy).Contents (Elt F) :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- The weighted in-degree: node v collects the weights of the edges that end at v. -/
def deg (d : (⟨S1700000, .i32⟩ : BufTy).Contents (Elt F)) (w : (⟨S1700000, .f32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) w

/-- deg^(-1/2) where the degree is positive, 0 elsewhere. -/
def dinv (g : (⟨S100000, .f32⟩ : BufTy).Contents (Elt F)) : (⟨S100000, .f32⟩ : BufTy).Contents (Elt F) :=
  select (cmpf .ogt g (broadcastInDim S100000 ![] bcast_S_S100000 (constant S_ .f32 0x00000000#32))) (Host.rsqrt g) (broadcastInDim S100000 ![] bcast_S_S100000 (id (constant S_ .f32 0x00000000#32)))

/-- The coefficient of edge e from given inverse roots r: r (s_e) · w_e · r (d_e). -/
def coef (r : (⟨S100000, .f32⟩ : BufTy).Contents (Elt F)) (s d : (⟨S1700000, .i32⟩ : BufTy).Contents (Elt F)) (w : (⟨S1700000, .f32⟩ : BufTy).Contents (Elt F)) : (⟨S1700000, .f32⟩ : BufTy).Contents (Elt F) :=
  mulf (mulf (Host.gather gather_S100000_S1700000x1_S1700000_n_0_n_n_0_1_1 r (wrap s)) w) (Host.gather gather_S100000_S1700000x1_S1700000_n_0_n_n_0_1_1 r (wrap d))

/-- The coefficient of edge e: dinv (s_e) · w_e · dinv (d_e), the inverse roots those of the weighted in-degrees. -/
def norm (s d : (⟨S1700000, .i32⟩ : BufTy).Contents (Elt F)) (w : (⟨S1700000, .f32⟩ : BufTy).Contents (Elt F)) : (⟨S1700000, .f32⟩ : BufTy).Contents (Elt F) :=
  coef (dinv (deg d w)) s d w

/-- One propagation: node v collects n_e · h (s_e) over the edges that end at v, and the bias row is added. -/
def propagate (h : (⟨S100000x64, .f32⟩ : BufTy).Contents (Elt F)) (s d : (⟨S1700000, .i32⟩ : BufTy).Contents (Elt F))
    (n : (⟨S1700000, .f32⟩ : BufTy).Contents (Elt F)) (b : (⟨S64, .f32⟩ : BufTy).Contents (Elt F)) : (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 h (wrap s)) (broadcastInDim S1700000x64 ![0, 1] bcast_S1700000x1_S1700000x64_0_1 (broadcastInDim S1700000x1 ![0] bcast_S1700000_S1700000x1_0 n)))) (broadcastInDim S100000x64 ![0, 1] bcast_S1x64_S100000x64_0_1 (broadcastInDim S1x64 ![1] bcast_S64_S1x64_1 b))

/-- The rectifier on node features. -/
def relu (x : (⟨S100000x64, .f32⟩ : BufTy).Contents (Elt F)) : (⟨S100000x64, .f32⟩ : BufTy).Contents (Elt F) :=
  maximumf x (broadcastInDim S100000x64 ![] bcast_S_S100000x64 (constant S_ .f32 0x00000000#32))

/-- The first dense product, x · W1, over all rows. -/
abbrev prod1 (x : (⟨S100000x512, .f32⟩ : BufTy).Contents (Elt F)) (w : (⟨S512x64, .f32⟩ : BufTy).Contents (Elt F)) : (⟨S100000x64, .f32⟩ : BufTy).Contents (Elt F) :=
  Host.dotGeneral (DotDims.plain 100000 512 64) none (φ₁ := .f32) (φ₂ := .f32) x w

/-- The second dense product, h · W2, over all rows. -/
abbrev prod2 (x : (⟨S100000x64, .f32⟩ : BufTy).Contents (Elt F)) (w : (⟨S64x64, .f32⟩ : BufTy).Contents (Elt F)) : (⟨S100000x64, .f32⟩ : BufTy).Contents (Elt F) :=
  Host.dotGeneral (DotDims.plain 100000 64 64) none (φ₁ := .f32) (φ₂ := .f32) x w

/-- The network: two propagations around the rectifier, each after its dense product. -/
def net (x : (⟨S100000x512, .f32⟩ : BufTy).Contents (Elt F)) (e : (⟨S2x1600000, .i32⟩ : BufTy).Contents (Elt F))
    (w : (⟨S1600000, .f32⟩ : BufTy).Contents (Elt F)) (W1 : (⟨S512x64, .f32⟩ : BufTy).Contents (Elt F)) (b1 : (⟨S64, .f32⟩ : BufTy).Contents (Elt F))
    (W2 : (⟨S64x64, .f32⟩ : BufTy).Contents (Elt F)) (b2 : (⟨S64, .f32⟩ : BufTy).Contents (Elt F)) : (⟨S100000x64, .f32⟩ : BufTy).Contents (Elt F) :=
  propagate (prod2 (relu (propagate (prod1 x W1) (srcs e) (dsts e) (norm (srcs e) (dsts e) (wts w)) b1)) W2)
    (srcs e) (dsts e) (norm (srcs e) (dsts e) (wts w)) b2

end Cert.GraphConvK

end
-- ==== Proof.GraphConv.lean ====
/-
  A two-layer graph convolution with self-loops and symmetric normalisation, as one function of its inputs.

  Nodes 0 … 99999, 1600000 weighted edges (s_e, d_e, w_e). Every node gets a self-loop of weight 1, so the edge lists
  grow to 1700000 entries. The weighted in-degree of node v is deg v = Σ_{e : d_e = v} w_e, its inverse root is
  deg^(-1/2) where deg > 0 and 0 elsewhere, and edge e carries the coefficient n_e = dinv(s_e) · w_e · dinv(d_e).
  One propagation sends node features h (100000 × 64) to out v = Σ_{e : d_e = v} n_e · h (s_e) + b, and the network is
  propagate (relu (propagate (x · W1) + b1) · W2) + b2. A negative node index is read from the far end (+100000).

  Both programs spell every one of these steps with the same host operations; they differ only in how the two dense
  products are computed. So the steps are named here once, as functions, and each program's result is then a
  composition of these names around its own two products.
-/
import proofs.«121148_j88476326297971_1_alg».proof.ReferenceIdeal
import proofs.«121148_j88476326297971_1_alg».proof.Proof.Gen.ReferenceIdeal

noncomputable section

namespace Cert.GraphConv

open Cert.ReferenceIdeal Cert.ReferenceIdeal.Gen Idealize.ShloMosaic

variable {F : FTy → Type} [FloatOps F]

/-- Source node of every edge, then of every self-loop (node v loops to itself). -/
def srcs (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Target node of every edge, then of every self-loop. -/
def dsts (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- Weight of every edge, then weight 1 for every self-loop. -/
def wts (w : (⟨S1600000, .f32⟩ : BufTy).Contents (Elt F)) : (⟨S1700000, .f32⟩ : BufTy).Contents (Elt F) :=
  concatenate S1700000 0 [⟨S1600000, w⟩, ⟨S100000, (broadcastInDim S100000 ![] bcast_S_S100000 (constant S_ .f32 0x3F800000#32))⟩] concatenates_S1600000_S100000_S1700000_d0

/-- A node index as a gather reads it: a negative index counts from the far end; laid out as a column. -/
def wrap (s : (⟨S1700000, .i32⟩ : BufTy).Contents (Elt F)) : (⟨S1700000x1, .i32⟩ : BufTy).Contents (Elt F) :=
  broadcastInDim S1700000x1 ![0] bcast_S1700000_S1700000x1_0 (select (cmpi .slt s (broadcastInDim S1700000 ![] bcast_S_S1700000 (constantI S_ 32 0#32))) (addi s (broadcastInDim S1700000 ![] bcast_S_S1700000 (constantI S_ 32 100000#32))) s)

/-- The weighted in-degree: node v collects the weights of the edges that end at v. -/
def deg (d : (⟨S1700000, .i32⟩ : BufTy).Contents (Elt F)) (w : (⟨S1700000, .f32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (broadcastInDim S1700000x1 ![0] bcast_S1700000_S1700000x1_0 d) w

/-- deg^(-1/2) where the degree is positive, 0 elsewhere. -/
def dinv (g : (⟨S100000, .f32⟩ : BufTy).Contents (Elt F)) : (⟨S100000, .f32⟩ : BufTy).Contents (Elt F) :=
  select (cmpf .ogt g (broadcastInDim S100000 ![] bcast_S_S100000 (constant S_ .f32 0x00000000#32))) (Host.rsqrt g) (broadcastInDim S100000 ![] bcast_S_S100000 (id (constant S_ .f32 0x00000000#32)))

/-- The coefficient of edge e from given inverse roots r: r (s_e) · w_e · r (d_e). -/
def coef (r : (⟨S100000, .f32⟩ : BufTy).Contents (Elt F)) (s d : (⟨S1700000, .i32⟩ : BufTy).Contents (Elt F)) (w : (⟨S1700000, .f32⟩ : BufTy).Contents (Elt F)) : (⟨S1700000, .f32⟩ : BufTy).Contents (Elt F) :=
  mulf (mulf (Host.gather gather_S100000_S1700000x1_S1700000_n_0_n_n_0_1_1 r (wrap s)) w) (Host.gather gather_S100000_S1700000x1_S1700000_n_0_n_n_0_1_1 r (wrap d))

/-- The coefficient of edge e: dinv (s_e) · w_e · dinv (d_e), the inverse roots those of the weighted in-degrees. -/
def norm (s d : (⟨S1700000, .i32⟩ : BufTy).Contents (Elt F)) (w : (⟨S1700000, .f32⟩ : BufTy).Contents (Elt F)) : (⟨S1700000, .f32⟩ : BufTy).Contents (Elt F) :=
  coef (dinv (deg d w)) s d w

/-- One propagation: node v collects n_e · h (s_e) over the edges that end at v, and the bias row is added. -/
def propagate (h : (⟨S100000x64, .f32⟩ : BufTy).Contents (Elt F)) (s d : (⟨S1700000, .i32⟩ : BufTy).Contents (Elt F))
    (n : (⟨S1700000, .f32⟩ : BufTy).Contents (Elt F)) (b : (⟨S64, .f32⟩ : BufTy).Contents (Elt F)) : (⟨S100000x64, .f32⟩ : BufTy).Contents (Elt F) :=
  addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 d) (mulf (Host.gather gather_S100000x64_S1700000x1_S1700000x64_1_0_n_n_0_1_164 h (wrap s)) (broadcastInDim S1700000x64 ![0, 1] bcast_S1700000x1_S1700000x64_0_1 (broadcastInDim S1700000x1 ![0] bcast_S1700000_S1700000x1_0 n)))) (broadcastInDim S100000x64 ![0, 1] bcast_S1x64_S100000x64_0_1 (broadcastInDim S1x64 ![1] bcast_S64_S1x64_1 b))

/-- The rectifier on node features. -/
def relu (x : (⟨S100000x64, .f32⟩ : BufTy).Contents (Elt F)) : (⟨S100000x64, .f32⟩ : BufTy).Contents (Elt F) :=
  maximumf x (broadcastInDim S100000x64 ![] bcast_S_S100000x64 (constant S_ .f32 0x00000000#32))

/-- The first dense product, x · W1, over all rows. -/
abbrev prod1 (x : (⟨S100000x512, .f32⟩ : BufTy).Contents (Elt F)) (w : (⟨S512x64, .f32⟩ : BufTy).Contents (Elt F)) : (⟨S100000x64, .f32⟩ : BufTy).Contents (Elt F) :=
  Host.dotGeneral dot_S100000x512_S512x64_S100000x64_1_0_0_1_n_n none x w

/-- The second dense product, h · W2, over all rows. -/
abbrev prod2 (x : (⟨S100000x64, .f32⟩ : BufTy).Contents (Elt F)) (w : (⟨S64x64, .f32⟩ : BufTy).Contents (Elt F)) : (⟨S100000x64, .f32⟩ : BufTy).Contents (Elt F) :=
  Host.dotGeneral dot_S100000x64_S64x64_S100000x64_1_0_0_1_n_n none x w

/-- The network: two propagations around the rectifier, each after its dense product. -/
def net (x : (⟨S100000x512, .f32⟩ : BufTy).Contents (Elt F)) (e : (⟨S2x1600000, .i32⟩ : BufTy).Contents (Elt F))
    (w : (⟨S1600000, .f32⟩ : BufTy).Contents (Elt F)) (W1 : (⟨S512x64, .f32⟩ : BufTy).Contents (Elt F)) (b1 : (⟨S64, .f32⟩ : BufTy).Contents (Elt F))
    (W2 : (⟨S64x64, .f32⟩ : BufTy).Contents (Elt F)) (b2 : (⟨S64, .f32⟩ : BufTy).Contents (Elt F)) : (⟨S100000x64, .f32⟩ : BufTy).Contents (Elt F) :=
  propagate (prod2 (relu (propagate (prod1 x W1) (srcs e) (dsts e) (norm (srcs e) (dsts e) (wts w)) b1)) W2)
    (srcs e) (dsts e) (norm (srcs e) (dsts e) (wts w)) b2

end Cert.GraphConv

end
-- ==== Proof.GraphConvBridge.lean ====
/-
  The two spellings of the specification are one function.

  Each step is the same host operation over the same sizes; only the names of the printed shape and dimension
  records differ between the two programs, and records of the same lists are equal. So each function over the
  kernel's records is the function over the reference's, and so is the network.
-/
import proofs.«121148_j88476326297971_1_alg».proof.Proof.GraphConv
import proofs.«121148_j88476326297971_1_alg».proof.Proof.GraphConvK

noncomputable section

namespace Cert.GraphConvBridge

open Idealize.ShloMosaic

variable {F : FTy → Type} [FloatOps F]

open Cert.KernelIdeal in
theorem srcs_eq (e : (⟨S2x1600000, .i32⟩ : BufTy).Contents (Elt F)) : Cert.GraphConvK.srcs e = Cert.GraphConv.srcs e := rfl
open Cert.KernelIdeal in
theorem dsts_eq (e : (⟨S2x1600000, .i32⟩ : BufTy).Contents (Elt F)) : Cert.GraphConvK.dsts e = Cert.GraphConv.dsts e := rfl
open Cert.KernelIdeal in
theorem wts_eq (w : (⟨S1600000, .f32⟩ : BufTy).Contents (Elt F)) : Cert.GraphConvK.wts w = Cert.GraphConv.wts w := rfl
open Cert.KernelIdeal in
theorem wrap_eq (s : (⟨S1700000, .i32⟩ : BufTy).Contents (Elt F)) : Cert.GraphConvK.wrap s = Cert.GraphConv.wrap s := rfl
open Cert.KernelIdeal in
theorem deg_eq (d : (⟨S1700000, .i32⟩ : BufTy).Contents (Elt F)) (w : (⟨S1700000, .f32⟩ : BufTy).Contents (Elt F)) :
    Cert.GraphConvK.deg d w = Cert.GraphConv.deg d w := rfl
open Cert.KernelIdeal in
theorem dinv_eq (g : (⟨S100000, .f32⟩ : BufTy).Contents (Elt F)) : Cert.GraphConvK.dinv g = Cert.GraphConv.dinv g := rfl
open Cert.KernelIdeal in
theorem coef_eq (r : (⟨S100000, .f32⟩ : BufTy).Contents (Elt F)) (s d : (⟨S1700000, .i32⟩ : BufTy).Contents (Elt F)) (w : (⟨S1700000, .f32⟩ : BufTy).Contents (Elt F)) :
    Cert.GraphConvK.coef r s d w = Cert.GraphConv.coef r s d w := by
  unfold Cert.GraphConvK.coef Cert.GraphConv.coef
  rw [wrap_eq, wrap_eq]
  rfl
open Cert.KernelIdeal in
theorem norm_eq (s d : (⟨S1700000, .i32⟩ : BufTy).Contents (Elt F)) (w : (⟨S1700000, .f32⟩ : BufTy).Contents (Elt F)) :
    Cert.GraphConvK.norm s d w = Cert.GraphConv.norm s d w := by
  unfold Cert.GraphConvK.norm Cert.GraphConv.norm
  rw [deg_eq, dinv_eq, coef_eq]
open Cert.KernelIdeal in
theorem propagate_eq (h : (⟨S100000x64, .f32⟩ : BufTy).Contents (Elt F)) (s d : (⟨S1700000, .i32⟩ : BufTy).Contents (Elt F))
    (n : (⟨S1700000, .f32⟩ : BufTy).Contents (Elt F)) (b : (⟨S64, .f32⟩ : BufTy).Contents (Elt F)) :
    Cert.GraphConvK.propagate h s d n b = Cert.GraphConv.propagate h s d n b := by
  unfold Cert.GraphConvK.propagate Cert.GraphConv.propagate
  rw [wrap_eq]
  rfl
open Cert.KernelIdeal in
theorem relu_eq (x : (⟨S100000x64, .f32⟩ : BufTy).Contents (Elt F)) : Cert.GraphConvK.relu x = Cert.GraphConv.relu x := rfl
open Cert.KernelIdeal in
theorem prod1_eq (x : (⟨S100000x512, .f32⟩ : BufTy).Contents (Elt F)) (w : (⟨S512x64, .f32⟩ : BufTy).Contents (Elt F)) :
    Cert.GraphConvK.prod1 x w = Cert.GraphConv.prod1 x w := rfl
open Cert.KernelIdeal in
theorem prod2_eq (x : (⟨S100000x64, .f32⟩ : BufTy).Contents (Elt F)) (w : (⟨S64x64, .f32⟩ : BufTy).Contents (Elt F)) :
    Cert.GraphConvK.prod2 x w = Cert.GraphConv.prod2 x w := rfl

open Cert.KernelIdeal in
/-- The network over the kernel's records is the network over the reference's. -/
theorem net_eq (x : (⟨S100000x512, .f32⟩ : BufTy).Contents (Elt F)) (e : (⟨S2x1600000, .i32⟩ : BufTy).Contents (Elt F))
    (w : (⟨S1600000, .f32⟩ : BufTy).Contents (Elt F)) (W1 : (⟨S512x64, .f32⟩ : BufTy).Contents (Elt F)) (b1 : (⟨S64, .f32⟩ : BufTy).Contents (Elt F))
    (W2 : (⟨S64x64, .f32⟩ : BufTy).Contents (Elt F)) (b2 : (⟨S64, .f32⟩ : BufTy).Contents (Elt F)) :
    Cert.GraphConvK.net x e w W1 b1 W2 b2 = Cert.GraphConv.net x e w W1 b1 W2 b2 := by
  unfold Cert.GraphConvK.net Cert.GraphConv.net
  rw [srcs_eq, dsts_eq, wts_eq, norm_eq, prod1_eq, propagate_eq, relu_eq, prod2_eq, propagate_eq]

end Cert.GraphConvBridge

end
-- ==== Proof.KernelNet.lean ====
/-
  The kernel program computes the network.

  The program is stretches of host operations around two regions. Reading the result buffer backwards: the last
  stretch is one propagation of what the second region left; the second region leaves the product of all rows of
  what it was entered with (the hidden features and W2); before it come the rectifier and, before that, a
  propagation of what the first region left; the first region leaves x · W1; and the first stretches build the edge
  lists with their self-loops and the edge coefficients (weighted in-degrees, their inverse roots chosen by a
  select, the two gathers and the products), once. No stretch and no region changes a buffer it does not write, so
  each of these is read at the boundary where it was made. Where a stretch is a called function, the contents it
  starts from are taken as given and only its own few operations are read. Put together, the result is the
  network of the seven arguments, its two dense products over all rows.
-/
import proofs.«121148_j88476326297971_1_alg».proof.Proof.KernelRun
import proofs.«121148_j88476326297971_1_alg».proof.Proof.Layer1Blocks
import proofs.«121148_j88476326297971_1_alg».proof.Proof.Layer2Blocks
import proofs.«121148_j88476326297971_1_alg».proof.Proof.GraphConvK
import proofs.«121148_j88476326297971_1_alg».proof.Proof.GraphConvBridge
import Idealize.ShloMosaic.Lib.StableHlo.Run

set_option maxRecDepth 16384

noncomputable section

namespace Cert.KernelIdeal.Net

open Cert.KernelIdeal Cert.KernelIdeal.Gen Cert.GraphConvK
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first stretch: where the degree is positive, its inverse root, and the zero to fall back on -/

theorem first_pos (c : Dev nD) : W1 m ρ c (Proc.devRef .tc main_v13)
    = cmpf .ogt (deg (dsts (m ((c.tc : Thread nD τ).loc main_arg1))) (wts (m ((c.tc : Thread nD τ).loc main_arg2))))
        (broadcastInDim S100000 ![] bcast_S_S100000 (constant S_ .f32 0x00000000#32)) := by
  show StableHlo.after hostOps0 (W0 m ρ c) (Proc.devRef .tc main_v13) = _
  dsimp only [hostOps0]
  after_results_simp <;> rfl

theorem first_rsqrt (c : Dev nD) : W1 m ρ c (Proc.devRef .tc main_v14)
    = Host.rsqrt (deg (dsts (m ((c.tc : Thread nD τ).loc main_arg1))) (wts (m ((c.tc : Thread nD τ).loc main_arg2)))) := by
  show StableHlo.after hostOps0 (W0 m ρ c) (Proc.devRef .tc main_v14) = _
  dsimp only [hostOps0]
  after_results_simp <;> rfl

theorem first_zero (c : Dev nD) : W1 m ρ c (Proc.devRef .tc main_cst_2) = constant (F := Ideal) S_ .f32 0x00000000#32 := by
  show StableHlo.after hostOps0 (W0 m ρ c) (Proc.devRef .tc main_cst_2) = _
  dsimp only [hostOps0]
  after_results_simp <;> rfl

/-! ## After the called select: the inverse roots; the edge lists and weights still in place -/

theorem second_select (c : Dev nD) : W2 m ρ c (Proc.devRef .tc main_v15)
    = select (W1 m ρ c (Proc.devRef .tc main_v13)) (W1 m ρ c (Proc.devRef .tc main_v14))
        (broadcastInDim S100000 ![] bcast_S_S100000 (id (W1 m ρ c (Proc.devRef .tc main_cst_2)))) := by
  show StableHlo.after hostOps0_1 (W1 m ρ c) (Proc.devRef .tc main_v15) = _
  generalize W1 m ρ c = X
  dsimp only [hostOps0_1]
  after_results_simp <;> rfl

theorem second_dinv (c : Dev nD) : W2 m ρ c (Proc.devRef .tc main_v15)
    = dinv (deg (dsts (m ((c.tc : Thread nD τ).loc main_arg1))) (wts (m ((c.tc : Thread nD τ).loc main_arg2)))) := by
  rw [second_select, first_pos, first_rsqrt, first_zero]
  rfl

theorem second_srcs (c : Dev nD) : W2 m ρ c (Proc.devRef .tc main_v5) = srcs (m ((c.tc : Thread nD τ).loc main_arg1)) := by
  show StableHlo.after hostOps0_1 (StableHlo.after hostOps0 (W0 m ρ c)) (Proc.devRef .tc main_v5) = _
  dsimp only [hostOps0_1, hostOps0]
  after_results_simp <;> rfl

theorem second_dsts (c : Dev nD) : W2 m ρ c (Proc.devRef .tc main_v6) = dsts (m ((c.tc : Thread nD τ).loc main_arg1)) := by
  show StableHlo.after hostOps0_1 (StableHlo.after hostOps0 (W0 m ρ c)) (Proc.devRef .tc main_v6) = _
  dsimp only [hostOps0_1, hostOps0]
  after_results_simp <;> rfl

theorem second_wts (c : Dev nD) : W2 m ρ c (Proc.devRef .tc main_v8) = wts (m ((c.tc : Thread nD τ).loc main_arg2)) := by
  show StableHlo.after hostOps0_1 (StableHlo.after hostOps0 (W0 m ρ c)) (Proc.devRef .tc main_v8) = _
  dsimp only [hostOps0_1, hostOps0]
  after_results_simp <;> rfl

/-! ## Entering the first region: the coefficients, the edge lists, and the arguments in place -/

theorem entry0_coef (c : Dev nD) : W3 m ρ c (Proc.devRef .tc main_v31)
    = coef (W2 m ρ c (Proc.devRef .tc main_v15)) (W2 m ρ c (Proc.devRef .tc main_v5)) (W2 m ρ c (Proc.devRef .tc main_v6))
        (W2 m ρ c (Proc.devRef .tc main_v8)) := by
  show StableHlo.after hostOps0_2 (W2 m ρ c) (Proc.devRef .tc main_v31) = _
  generalize W2 m ρ c = X
  dsimp only [hostOps0_2]
  after_results_simp <;> rfl

theorem entry0_norm (c : Dev nD) : W3 m ρ c (Proc.devRef .tc main_v31)
    = norm (srcs (m ((c.tc : Thread nD τ).loc main_arg1))) (dsts (m ((c.tc : Thread nD τ).loc main_arg1)))
        (wts (m ((c.tc : Thread nD τ).loc main_arg2))) := by
  rw [entry0_coef, second_dinv, second_srcs, second_dsts, second_wts]
  rfl

theorem entry0_srcs (c : Dev nD) : W3 m ρ c (Proc.devRef .tc main_v5) = srcs (m ((c.tc : Thread nD τ).loc main_arg1)) := by
  show StableHlo.after hostOps0_2 (StableHlo.after hostOps0_1 (StableHlo.after hostOps0 (W0 m ρ c))) (Proc.devRef .tc main_v5) = _
  dsimp only [hostOps0_2, hostOps0_1, hostOps0]
  after_results_simp <;> rfl

theorem entry0_dsts (c : Dev nD) : W3 m ρ c (Proc.devRef .tc main_v6) = dsts (m ((c.tc : Thread nD τ).loc main_arg1)) := by
  show StableHlo.after hostOps0_2 (StableHlo.after hostOps0_1 (StableHlo.after hostOps0 (W0 m ρ c))) (Proc.devRef .tc main_v6) = _
  dsimp only [hostOps0_2, hostOps0_1, hostOps0]
  after_results_simp <;> rfl

theorem entry0_x (c : Dev nD) : W3 m ρ c (Proc.devRef .tc main_arg0) = m ((c.tc : Thread nD τ).loc main_arg0) := by
  show StableHlo.after hostOps0_2 (StableHlo.after hostOps0_1 (StableHlo.after hostOps0 (W0 m ρ c))) (Proc.devRef .tc main_arg0) = _
  dsimp only [hostOps0_2, hostOps0_1, hostOps0]
  after_results_simp <;> rfl

theorem entry0_W1 (c : Dev nD) : W3 m ρ c (Proc.devRef .tc main_arg3) = m ((c.tc : Thread nD τ).loc main_arg3) := by
  show StableHlo.after hostOps0_2 (StableHlo.after hostOps0_1 (StableHlo.after hostOps0 (W0 m ρ c))) (Proc.devRef .tc main_arg3) = _
  dsimp only [hostOps0_2, hostOps0_1, hostOps0]
  after_results_simp <;> rfl

theorem entry0_b1 (c : Dev nD) : W3 m ρ c (Proc.devRef .tc main_arg4) = m ((c.tc : Thread nD τ).loc main_arg4) := by
  show StableHlo.after hostOps0_2 (StableHlo.after hostOps0_1 (StableHlo.after hostOps0 (W0 m ρ c))) (Proc.devRef .tc main_arg4) = _
  dsimp only [hostOps0_2, hostOps0_1, hostOps0]
  after_results_simp <;> rfl

theorem entry0_W2 (c : Dev nD) : W3 m ρ c (Proc.devRef .tc main_arg5) = m ((c.tc : Thread nD τ).loc main_arg5) := by
  show StableHlo.after hostOps0_2 (StableHlo.after hostOps0_1 (StableHlo.after hostOps0 (W0 m ρ c))) (Proc.devRef .tc main_arg5) = _
  dsimp only [hostOps0_2, hostOps0_1, hostOps0]
  after_results_simp <;> rfl

theorem entry0_b2 (c : Dev nD) : W3 m ρ c (Proc.devRef .tc main_arg6) = m ((c.tc : Thread nD τ).loc main_arg6) := by
  show StableHlo.after hostOps0_2 (StableHlo.after hostOps0_1 (StableHlo.after hostOps0 (W0 m ρ c))) (Proc.devRef .tc main_arg6) = _
  dsimp only [hostOps0_2, hostOps0_1, hostOps0]
  after_results_simp <;> rfl

/-! ## Leaving the first region: x · W1 over all rows in its output; every other buffer as entered -/

theorem exit0_h (c : Dev nD) : W4 m ρ c (Proc.devRef .tc main_v32)
    = prod1 (W3 m ρ c (Proc.devRef .tc main_arg0)) (W3 m ρ c (Proc.devRef .tc main_arg3)) :=
  (W4_arr m ρ c 2).trans (Layer1.arr_eq (V3 m ρ) c)

theorem exit0_srcs (c : Dev nD) : W4 m ρ c (Proc.devRef .tc main_v5) = W3 m ρ c (Proc.devRef .tc main_v5) :=
  W4_of_ne m ρ c main_v5 (by decide)
theorem exit0_dsts (c : Dev nD) : W4 m ρ c (Proc.devRef .tc main_v6) = W3 m ρ c (Proc.devRef .tc main_v6) :=
  W4_of_ne m ρ c main_v6 (by decide)
theorem exit0_norm (c : Dev nD) : W4 m ρ c (Proc.devRef .tc main_v31) = W3 m ρ c (Proc.devRef .tc main_v31) :=
  W4_of_ne m ρ c main_v31 (by decide)
theorem exit0_b1 (c : Dev nD) : W4 m ρ c (Proc.devRef .tc main_arg4) = W3 m ρ c (Proc.devRef .tc main_arg4) :=
  W4_of_ne m ρ c main_arg4 (by decide)
theorem exit0_W2 (c : Dev nD) : W4 m ρ c (Proc.devRef .tc main_arg5) = W3 m ρ c (Proc.devRef .tc main_arg5) :=
  W4_of_ne m ρ c main_arg5 (by decide)
theorem exit0_b2 (c : Dev nD) : W4 m ρ c (Proc.devRef .tc main_arg6) = W3 m ρ c (Proc.devRef .tc main_arg6) :=
  W4_of_ne m ρ c main_arg6 (by decide)

/-! ## Between the regions: one propagation, then the called rectifier -/

theorem mid_propagate (c : Dev nD) : W5 m ρ c (Proc.devRef .tc main_v48)
    = propagate (W4 m ρ c (Proc.devRef .tc main_v32)) (W4 m ρ c (Proc.devRef .tc main_v5)) (W4 m ρ c (Proc.devRef .tc main_v6))
        (W4 m ρ c (Proc.devRef .tc main_v31)) (W4 m ρ c (Proc.devRef .tc main_arg4)) := by
  show StableHlo.after hostOps1 (W4 m ρ c) (Proc.devRef .tc main_v48) = _
  generalize W4 m ρ c = X
  dsimp only [hostOps1]
  after_results_simp <;> rfl

theorem entry1_relu (c : Dev nD) : W6 m ρ c (Proc.devRef .tc main_v49) = relu (W5 m ρ c (Proc.devRef .tc main_v48)) := by
  show StableHlo.after hostOps1_1 (W5 m ρ c) (Proc.devRef .tc main_v49) = _
  generalize W5 m ρ c = X
  dsimp only [hostOps1_1]
  after_results_simp <;> rfl

theorem entry1_srcs (c : Dev nD) : W6 m ρ c (Proc.devRef .tc main_v5) = W4 m ρ c (Proc.devRef .tc main_v5) := by
  show StableHlo.after hostOps1_1 (StableHlo.after hostOps1 (W4 m ρ c)) (Proc.devRef .tc main_v5) = _
  generalize W4 m ρ c = X
  dsimp only [hostOps1_1, hostOps1]
  after_results_simp <;> rfl

theorem entry1_dsts (c : Dev nD) : W6 m ρ c (Proc.devRef .tc main_v6) = W4 m ρ c (Proc.devRef .tc main_v6) := by
  show StableHlo.after hostOps1_1 (StableHlo.after hostOps1 (W4 m ρ c)) (Proc.devRef .tc main_v6) = _
  generalize W4 m ρ c = X
  dsimp only [hostOps1_1, hostOps1]
  after_results_simp <;> rfl

theorem entry1_norm (c : Dev nD) : W6 m ρ c (Proc.devRef .tc main_v31) = W4 m ρ c (Proc.devRef .tc main_v31) := by
  show StableHlo.after hostOps1_1 (StableHlo.after hostOps1 (W4 m ρ c)) (Proc.devRef .tc main_v31) = _
  generalize W4 m ρ c = X
  dsimp only [hostOps1_1, hostOps1]
  after_results_simp <;> rfl

theorem entry1_W2 (c : Dev nD) : W6 m ρ c (Proc.devRef .tc main_arg5) = W4 m ρ c (Proc.devRef .tc main_arg5) := by
  show StableHlo.after hostOps1_1 (StableHlo.after hostOps1 (W4 m ρ c)) (Proc.devRef .tc main_arg5) = _
  generalize W4 m ρ c = X
  dsimp only [hostOps1_1, hostOps1]
  after_results_simp <;> rfl

theorem entry1_b2 (c : Dev nD) : W6 m ρ c (Proc.devRef .tc main_arg6) = W4 m ρ c (Proc.devRef .tc main_arg6) := by
  show StableHlo.after hostOps1_1 (StableHlo.after hostOps1 (W4 m ρ c)) (Proc.devRef .tc main_arg6) = _
  generalize W4 m ρ c = X
  dsimp only [hostOps1_1, hostOps1]
  after_results_simp <;> rfl

/-! ## Leaving the second region: h · W2 over all rows in its output; every other buffer as entered -/

theorem exit1_h (c : Dev nD) : W7 m ρ c (Proc.devRef .tc main_v50)
    = prod2 (W6 m ρ c (Proc.devRef .tc main_v49)) (W6 m ρ c (Proc.devRef .tc main_arg5)) :=
  (W7_arr m ρ c 2).trans (Layer2.arr_eq (V6 m ρ) c)

theorem exit1_srcs (c : Dev nD) : W7 m ρ c (Proc.devRef .tc main_v5) = W6 m ρ c (Proc.devRef .tc main_v5) :=
  W7_of_ne m ρ c main_v5 (by decide)
theorem exit1_dsts (c : Dev nD) : W7 m ρ c (Proc.devRef .tc main_v6) = W6 m ρ c (Proc.devRef .tc main_v6) :=
  W7_of_ne m ρ c main_v6 (by decide)
theorem exit1_norm (c : Dev nD) : W7 m ρ c (Proc.devRef .tc main_v31) = W6 m ρ c (Proc.devRef .tc main_v31) :=
  W7_of_ne m ρ c main_v31 (by decide)
theorem exit1_b2 (c : Dev nD) : W7 m ρ c (Proc.devRef .tc main_arg6) = W6 m ρ c (Proc.devRef .tc main_arg6) :=
  W7_of_ne m ρ c main_arg6 (by decide)

/-! ## After the second region: the last propagation -/

theorem last_propagate (c : Dev nD) : W8 m ρ c (Proc.devRef .tc main_v66)
    = propagate (W7 m ρ c (Proc.devRef .tc main_v50)) (W7 m ρ c (Proc.devRef .tc main_v5)) (W7 m ρ c (Proc.devRef .tc main_v6))
        (W7 m ρ c (Proc.devRef .tc main_v31)) (W7 m ρ c (Proc.devRef .tc main_arg6)) := by
  show StableHlo.after hostOps2 (W7 m ρ c) (Proc.devRef .tc main_v66) = _
  generalize W7 m ρ c = X
  dsimp only [hostOps2]
  after_results_simp <;> rfl

/-! ## Put together -/

/-- The result buffer after the run holds the network of the seven arguments, over the kernel's own records; -/
theorem result_eq_own (c : Dev nD) : W8 m ρ c (Proc.devRef .tc main_v66)
    = net (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) := by
  rw [last_propagate, exit1_h, exit1_srcs, exit1_dsts, exit1_norm, exit1_b2,
    entry1_relu, mid_propagate, entry1_srcs, entry1_dsts, entry1_norm, entry1_W2, entry1_b2,
    exit0_h, exit0_srcs, exit0_dsts, exit0_norm, exit0_b1, exit0_W2, exit0_b2,
    entry0_srcs, entry0_dsts, entry0_norm, entry0_x, entry0_W1, entry0_b1, entry0_W2, entry0_b2]
  rfl

/-- and so the network as the specification states it. -/
theorem result_eq (c : Dev nD) : W8 m ρ c (Proc.devRef .tc main_v66)
    = Cert.GraphConv.net (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) :=
  (result_eq_own m ρ c).trans (Cert.GraphConvBridge.net_eq _ _ _ _ _ _ _)

/-- The program's run re-posted: every weakly fair execution ends, nothing faulting, the result array at the network of
    the arguments, the arguments as launched. -/
theorem run : θ_run defs (onTc (τ := τ) (main (F := Ideal))) ⟨m, fun _ => 0, ρ⟩ (fun r => ∀ c : Dev nD,
      r.2.mem ((c.tc : Thread nD τ).loc main_v66)
        = Cert.GraphConv.net (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (result_eq m ρ c), (h c).2⟩)
    (Cert.KernelIdeal.Result.run_result (F := Ideal) m ρ)

end Cert.KernelIdeal.Net

end
-- ==== Proof.RefNet.lean ====
/-
  The reference computes the network.

  Read back as one term of its arguments, the reference's result is the composition named in the specification:
  the edge lists with their self-loops, the edge coefficients from the weighted in-degrees, x · W1 propagated and
  biased, the rectifier, then · W2 propagated and biased. The reference computes the edge lists and coefficients a
  second time for its second layer, by the same operations on the same inputs: the same term.
-/
import proofs.«121148_j88476326297971_1_alg».proof.Proof.Gen.ReferenceIdeal.Run
import proofs.«121148_j88476326297971_1_alg».proof.Proof.GraphConv

noncomputable section

namespace Cert.ReferenceIdeal.Net

open Cert.ReferenceIdeal Cert.ReferenceIdeal.Gen Cert.ReferenceIdeal.Value Cert.GraphConv
open Idealize.ShloMosaic Idealize.ShloMosaic.TcCoe Idealize.SL.Sem

variable {F : FTy → Type} [FloatOps F]

set_option maxRecDepth 16384 in
/-- The reference's result term is the network of its seven arguments. -/
theorem result_eq (m : (ℓ : Loc nD τ sig) → Buf (Elt F) ℓ) (c : Dev nD) :
    res_main_v94 m c = net (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := by
  unfold res_main_v94 net propagate norm coef relu dinv deg wrap srcs dsts wts
  rfl

end Cert.ReferenceIdeal.Net

end
-- ==== Proof.lean ====
/-
  A two-layer graph convolution, its two dense products in a kernel, against the same network written with host
  operations only: equal results over the extended reals.

  Both programs build the edge lists with one self-loop per node, the weighted in-degrees, their inverse roots and
  the edge coefficients, and both compute  propagate (relu (propagate (x · W1) + b1) · W2) + b2  with the same
  gathers and scatter-adds. They differ in two places. The kernel program computes each dense product in a region
  that walks the 100000 rows in twenty blocks of 5000, multiplying a block by the whole weight matrix into a zero
  accumulator after a change of float format; over the extended reals a change of format changes nothing, a block
  product into a zero accumulator is the plain sum over the contracted coordinate, and the blocks tile the rows, so
  each region leaves the product of all rows — what the reference's single product computes. And the reference
  builds the edge lists and coefficients a second time for its second layer, by the same operations on the same
  inputs, where the kernel program reuses the first. No algebraic law beyond reading both products as the same sum
  is needed, and none that asks the inputs to be finite.

  The three programs run, and keep their arguments, by their generated frames (the reference's is its generated run
  with the result dropped); the idealisation rewrote no operation, so nothing is owed for it; the kernel program's
  result is read off its run boundary by boundary, the reference's off its generated run, and both are the network
  of the specification.
-/
import proofs.«121148_j88476326297971_1_alg».proof.Defs
import proofs.«121148_j88476326297971_1_alg».proof.Proof.Gen.Kernel
import proofs.«121148_j88476326297971_1_alg».proof.Proof.Gen.Kernel.Skeleton
import proofs.«121148_j88476326297971_1_alg».proof.Proof.Gen.Kernel.Launch
import proofs.«121148_j88476326297971_1_alg».proof.Proof.Gen.Kernel.Points
import proofs.«121148_j88476326297971_1_alg».proof.Proof.Gen.Kernel.Frame
import proofs.«121148_j88476326297971_1_alg».proof.Proof.Gen.KernelIdeal
import proofs.«121148_j88476326297971_1_alg».proof.Proof.Gen.KernelIdeal.Skeleton
import proofs.«121148_j88476326297971_1_alg».proof.Proof.Gen.KernelIdeal.Launch
import proofs.«121148_j88476326297971_1_alg».proof.Proof.Gen.KernelIdeal.Points
import proofs.«121148_j88476326297971_1_alg».proof.Proof.Gen.KernelIdeal.Frame
import proofs.«121148_j88476326297971_1_alg».proof.Proof.Gen.ReferenceIdeal
import proofs.«121148_j88476326297971_1_alg».proof.Proof.Gen.ReferenceIdeal.Run
import proofs.«121148_j88476326297971_1_alg».proof.Proof.Gen.Pre_finite_inputs
import proofs.«121148_j88476326297971_1_alg».proof.Proof.KernelNet
import proofs.«121148_j88476326297971_1_alg».proof.Proof.RefNet
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the seven arguments both programs end with the network of those arguments in their
    result arrays. -/
theorem algebraic : Cert.algebraic_KernelIdeal_ReferenceIdeal := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Net.result_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
